-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S16 : Shape := ⟨1, ![16]⟩
abbrev S4x64 : Shape := ⟨2, ![4, 64]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16x64x256x256 .f32) (main_arg1 : IVec S16 32) (main_arg2 : FVec F S4x64 .f32) (main_arg3 : FVec F S4x64 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Kernel.lean ====
abbrev S16x64x256x256 : Shape := ⟨4, ![16, 64, 256, 256]⟩
abbrev S16 : Shape := ⟨1, ![16]⟩
abbrev S4x64 : Shape := ⟨2, ![4, 64]⟩
abbrev S_ : Shape := ⟨0, ![]⟩
abbrev S16x1 : Shape := ⟨2, ![16, 1]⟩
abbrev S16x64 : Shape := ⟨2, ![16, 64]⟩
abbrev S16x64x1x1 : Shape := ⟨4, ![16, 64, 1, 1]⟩
abbrev S1x16x256x256 : Shape := ⟨4, ![1, 16, 256, 256]⟩
abbrev S1x16x1x1 : Shape := ⟨4, ![1, 16, 1, 1]⟩
abbrev S1x16x256 : Shape := ⟨3, ![1, 16, 256]⟩
abbrev S1x16x256x1 : Shape := ⟨4, ![1, 16, 256, 1]⟩
abbrev S1x16x1 : Shape := ⟨3, ![1, 16, 1]⟩

abbrev nBuf : Space → Nat
  | .hbm => 25
  | .vmem => 8
  | .smem => 0
  | _ => 0

abbrev bufTy : (tb : Table) → Fin (tcTables nBuf tb) → BufTy
  | .hbm, ⟨0, _⟩ => ⟨S16x64x256x256, .f32⟩
  | .hbm, ⟨1, _⟩ => ⟨S16, .i32⟩
  | .hbm, ⟨2, _⟩ => ⟨S4x64, .f32⟩
  | .hbm, ⟨3, _⟩ => ⟨S4x64, .f32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x64, .f32⟩
  | .hbm, ⟨13, _⟩ => ⟨S16x64x1x1, .f32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S16x64, .f32⟩
  | .hbm, ⟨23, _⟩ => ⟨S16x64x1x1, .f32⟩
  | .hbm, ⟨24, _⟩ => ⟨S16x64x256x256, .f32⟩
  | .local _ .vmem, ⟨0, _⟩ => ⟨S1x16x256x256, .f32⟩
  | .local _ .vmem, ⟨1, _⟩ => ⟨S1x16x256x256, .f32⟩
  | .local _ .vmem, ⟨2, _⟩ => ⟨S1x16x1x1, .f32⟩
  | .local _ .vmem, ⟨3, _⟩ => ⟨S1x16x1x1, .f32⟩
  | .local _ .vmem, ⟨4, _⟩ => ⟨S1x16x1x1, .f32⟩
  | .local _ .vmem, ⟨5, _⟩ => ⟨S1x16x1x1, .f32⟩
  | .local _ .vmem, ⟨6, _⟩ => ⟨S1x16x256x256, .f32⟩
  | .local _ .vmem, ⟨7, _⟩ => ⟨S1x16x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16 : S_.BroadcastsInDim S16 (![] : Fin 0 → Fin S16.rank)
  bcast_S16_S16x1_0 : S16.BroadcastsInDim S16x1 (![0] : Fin 1 → Fin S16x1.rank)
  shapeCasts_S16x64_S16x64x1x1 : S16x64.ShapeCasts S16x64x1x1
  inb_S1x16x256x256_S1x16x256x256_0_0_0_0 : ∀ a, (![0, 0, 0, 0] : Fin 4 → Nat) a + S1x16x256x256.size a ≤ S1x16x256x256.size a
  h_S1x16x256x256 : 0 < S1x16x256x256.numel
  reduces_S1x16x256x256_S1x16x256 : S1x16x256x256.Reduces [3] S1x16x256
  shapeCasts_S1x16x256_S1x16x256x1 : S1x16x256.ShapeCasts S1x16x256x1
  reduces_S1x16x256x1_S1x16x1 : S1x16x256x1.Reduces [2] S1x16x1
  shapeCasts_S1x16x1_S1x16x1x1 : S1x16x1.ShapeCasts S1x16x1x1
  broadcasts_S1x16x1x1_S1x16x256x256 : S1x16x1x1.Broadcasts S1x16x256x256
  inb_S1x16x1x1_S1x16x1x1_0_0_0_0 : ∀ a, (![0, 0, 0, 0] : Fin 4 → Nat) a + S1x16x1x1.size a ≤ S1x16x1x1.size a
  h_S1x16x1x1 : 0 < S1x16x1x1.numel
  shapeCasts_S1x16x1x1_S1x16x1x1 : S1x16x1x1.ShapeCasts S1x16x1x1
  gather_S4x64_S16x1_S16x64_1_0_n_n_0_1_164_wf : GatherDims.WF S4x64 S16x1 S16x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S16x64x256x256.size a
  hwx0_0 : ∀ i : grid0.Coords, EltTy.bits .f32 = 32 ∨ (Rect.block (s := S16x64x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x1x1.size a ≤ S16x64x1x1.size a
  hwx0_1 : ∀ i : grid0.Coords, EltTy.bits .f32 = 32 ∨ (Rect.block (s := S16x64x1x1) S1x16x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1x1.size a ≤ S16x64x1x1.size a
  hwx0_2 : ∀ i : grid0.Coords, EltTy.bits .f32 = 32 ∨ (Rect.block (s := S16x64x1x1) S1x16x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x256.size a ≤ S16x64x256x256.size a
  hwx0_3 : ∀ i : grid0.Coords, EltTy.bits .f32 = 32 ∨ (Rect.block (s := S16x64x256x256) S1x16x256x256.size (cc0_transform_3 i) (hinb0_3 i)).WholeWords (EltTy.packing .f32)

variable [Facts₀]

def gather_S4x64_S16x1_S16x64_1_0_n_n_0_1_164 : GatherDims S4x64 S16x1 S16x64 where
  offsetDims := [1]
  collapsedSliceDims := [0]
  operandBatchingDims := []
  startIndicesBatchingDims := []
  startIndexMap := [0]
  indexVectorDim := 1
  sliceSizes := ![1, 64]
  wf := gather_S4x64_S16x1_S16x64_1_0_n_n_0_1_164_wf

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x16x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x16x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x16x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S16 : Shape := ⟨1, ![16]⟩
abbrev S4x64 : Shape := ⟨2, ![4, 64]⟩
abbrev S_ : Shape := ⟨0, ![]⟩
abbrev S16x64 : Shape := ⟨2, ![16, 64]⟩
abbrev S16x64x1x1 : Shape := ⟨4, ![16, 64, 1, 1]⟩
abbrev S16x1 : Shape := ⟨2, ![16, 1]⟩

abbrev nBuf : Space → Nat
  | .hbm => 51
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16, .i32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S16x64, .f32⟩
  | .hbm, ⟨6, _⟩ => ⟨S16x64x1x1, .f32⟩
  | .hbm, ⟨7, _⟩ => ⟨S_, .f32⟩
  | .hbm, ⟨8, _⟩ => ⟨S16x64x1x1, .f32⟩
  | .hbm, ⟨9, _⟩ => ⟨S16x64x1x1, .f32⟩
  | .hbm, ⟨10, _⟩ => ⟨S16x64x256x256, .f32⟩
  | .hbm, ⟨11, _⟩ => ⟨S16x64x256x256, .f32⟩
  | .hbm, ⟨12, _⟩ => ⟨S16x64x256x256, .f32⟩
  | .hbm, ⟨13, _⟩ => ⟨S_, .f32⟩
  | .hbm, ⟨14, _⟩ => ⟨S16x64, .f32⟩
  | .hbm, ⟨15, _⟩ => ⟨S16x64x1x1, .f32⟩
  | .hbm, ⟨16, _⟩ => ⟨S_, .f32⟩
  | .hbm, ⟨17, _⟩ => ⟨S16x64x1x1, .f32⟩
  | .hbm, ⟨18, _⟩ => ⟨S16x64x1x1, .f32⟩
  | .hbm, ⟨19, _⟩ => ⟨S16x64x256x256, .f32⟩
  | .hbm, ⟨20, _⟩ => ⟨S16x64x256x256, .f32⟩
  | .hbm, ⟨21, _⟩ => ⟨S_, .f32⟩
  | .hbm, ⟨22, _⟩ => ⟨S16x64x1x1, .f32⟩
  | .hbm, ⟨23, _⟩ => ⟨S16x64x1x1, .f32⟩
  | .hbm, ⟨24, _⟩ => ⟨S16x64x1x1, .f32⟩
  | .hbm, ⟨25, _⟩ => ⟨S16x64x256x256, .f32⟩
  | .hbm, ⟨26, _⟩ => ⟨S16x64x256x256, .f32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S16x1, .i32⟩
  | .hbm, ⟨35, _⟩ => ⟨S16x64, .f32⟩
  | .hbm, ⟨36, _⟩ => ⟨S16x64x1x1, .f32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S16x1, .i32⟩
  | .hbm, ⟨45, _⟩ => ⟨S16x64, .f32⟩
  | .hbm, ⟨46, _⟩ => ⟨S16x64x1x1, .f32⟩
  | .hbm, ⟨47, _⟩ => ⟨S16x64x256x256, .f32⟩
  | .hbm, ⟨48, _⟩ => ⟨S16x64x256x256, .f32⟩
  | .hbm, ⟨49, _⟩ => ⟨S16x64x256x256, .f32⟩
  | .hbm, ⟨50, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  reducesTo_S16x64x256x256_S16x64_d2_3 : S16x64x256x256.ReducesTo [2, 3] S16x64
  h_S_ : 0 < S_.numel
  bcast_S16x64_S16x64x1x1_0_1 : S16x64.BroadcastsInDim S16x64x1x1 (![0, 1] : Fin 2 → Fin S16x64x1x1.rank)
  bcast_S_S16x64x1x1 : S_.BroadcastsInDim S16x64x1x1 (![] : Fin 0 → Fin S16x64x1x1.rank)
  bcast_S16x64x1x1_S16x64x256x256_0_1_2_3 : S16x64x1x1.BroadcastsInDim S16x64x256x256 (![0, 1, 2, 3] : Fin 4 → Fin S16x64x256x256.rank)
  bcast_S_S16 : S_.BroadcastsInDim S16 (![] : Fin 0 → Fin S16.rank)
  bcast_S16_S16x1_0 : S16.BroadcastsInDim S16x1 (![0] : Fin 1 → Fin S16x1.rank)
  gather_S4x64_S16x1_S16x64_1_0_n_n_0_1_164_wf : GatherDims.WF S4x64 S16x1 S16x64 [1] [0] [] [0] [] 1 ![1, 64]

variable [Facts₀]

def gather_S4x64_S16x1_S16x64_1_0_n_n_0_1_164 : GatherDims S4x64 S16x1 S16x64 where
  offsetDims := [1]
  collapsedSliceDims := [0]
  operandBatchingDims := []
  startIndicesBatchingDims := []
  startIndexMap := [0]
  indexVectorDim := 1
  sliceSizes := ![1, 64]
  wf := gather_S4x64_S16x1_S16x64_1_0_n_n_0_1_164_wf

class Facts : Prop extends Facts₀ where

variable [Facts]
-- ==== Proof.Normalize.lean ====
/-
  Instance normalisation with a per-sample affine, as one function of the arrays, over the extended reals.

  For an array X of shape [16, 64, 256, 256], and two [16, 64] arrays g and bt of per-(sample, channel) scale and shift:
  the plane sum of (b, c) is the double sum over the 256 x 256 plane; the mean is the plane sum times 2^-16 (the plane
  has 65536 = 2^16 entries); the centred array is X minus its plane's mean; the variance is the mean of the centred
  array's square; and the result at (b, c, r, w) is

      centred * rsqrt (variance + eps) * g (b, c) + bt (b, c).

  Two float words are read here as extended reals: 2^-16, by which one program multiplies, and 65536, by which the
  other divides; dividing any extended real by the real 65536 is multiplying it by 2^-16.
-/
import Idealize.ShloMosaic.PureOps.Ideal
import Idealize.ShloMosaic.PureOps.Ideal.Laws
import Idealize.ShloMosaic.Lib.ValueIdx

noncomputable section

namespace Cert.Normalize

open Idealize.ShloMosaic Idealize.ShloMosaic.ValueIdx
open scoped BigOperators

/-- The activations' shape and the per-(sample, channel) shape. -/
abbrev SX : Shape := ⟨4, ![16, 64, 256, 256]⟩
abbrev SR : Shape := ⟨2, ![16, 64]⟩

/-- One over the number of entries of a plane, 2^-16. -/
def invHW : EReal := ((1 / 65536 : ℝ) : EReal)

/-- The stabiliser added to the variance, kept as its float word (both programs spell the same word). -/
def eps : EReal := Ideal.ofBits .f32 0x3727C5AC#32

/-- The sum of Y over the plane of sample b, channel c. -/
def planeSum (Y : SX.Idx → EReal) (b : Fin 16) (c : Fin 64) : EReal :=
  ∑ r : Fin 256, ∑ w : Fin 256, Y (ix4 b c r w)

/-- The plane's mean. -/
def mean (X : SX.Idx → EReal) (b : Fin 16) (c : Fin 64) : EReal := planeSum X b c * invHW

/-- X minus the mean of the plane the index lies in. -/
def centred (X : SX.Idx → EReal) : SX.Idx → EReal := fun i => X i - mean X (i 0) (i 1)

/-- The plane's (biased) variance: the mean of the centred array's square. -/
def variance (X : SX.Idx → EReal) (b : Fin 16) (c : Fin 64) : EReal :=
  planeSum (fun i => centred X i * centred X i) b c * invHW

/-- The normalised array, scaled and shifted per (sample, channel). -/
def normalized (X : SX.Idx → EReal) (g bt : SR.Idx → EReal) : SX.Idx → EReal := fun i =>
  centred X i * Ideal.rsqrt (variance X (i 0) (i 1) + eps) * g (ix2 (i 0) (i 1)) + bt (ix2 (i 0) (i 1))

/-- The same computation for ONE plane given as a function of (row, column), with that plane's scale and shift. -/
def planeNorm (f : Fin 256 → Fin 256 → EReal) (gs bs : EReal) (r w : Fin 256) : EReal :=
  (f r w - (∑ r' : Fin 256, ∑ w' : Fin 256, f r' w') * invHW)
    * Ideal.rsqrt ((∑ r' : Fin 256, ∑ w' : Fin 256,
        (f r' w' - (∑ r'' : Fin 256, ∑ w'' : Fin 256, f r'' w'') * invHW)
          * (f r' w' - (∑ r'' : Fin 256, ∑ w'' : Fin 256, f r'' w'') * invHW)) * invHW + eps)
    * gs + bs

/-- The normalised array at (b, c, r, w) is plane (b, c)'s computation at (r, w). -/
theorem normalized_apply (X : SX.Idx → EReal) (g bt : SR.Idx → EReal) (b : Fin 16) (c : Fin 64) (r w : Fin 256) :
    normalized X g bt (ix4 b c r w)
      = planeNorm (fun r' w' => X (ix4 b c r' w')) (g (ix2 b c)) (bt (ix2 b c)) r w := rfl

/-- The float word 0x37800000 denotes 2^-16. -/
theorem ofBits_invHW : Ideal.ofBits .f32 0x37800000#32 = invHW := by
  unfold invHW
  simp [Ideal.ofBits, Ideal.ieee, -EReal.coe_mul]; norm_num

/-- The float word 0x47800000 denotes 65536. -/
theorem ofBits_65536 : Ideal.ofBits .f32 0x47800000#32 = ((65536 : ℝ) : EReal) := by
  simp [Ideal.ofBits, Ideal.ieee, -EReal.coe_mul]; norm_num

/-- Dividing by the word for 65536 is multiplying by 2^-16, on every extended real. -/
theorem div_65536 (s : EReal) : Ideal.div s (Ideal.ofBits .f32 0x47800000#32) = s * invHW := by
  rw [ofBits_65536, Ideal.div_coe (by norm_num : (65536 : ℝ) ≠ 0)]
  rfl

/-- The plane sum depends only on the plane's entries. -/
theorem planeSum_congr {Y Z : SX.Idx → EReal} (b : Fin 16) (c : Fin 64)
    (h : ∀ (r w : Fin 256), Y (ix4 b c r w) = Z (ix4 b c r w)) : planeSum Y b c = planeSum Z b c :=
  Finset.sum_congr rfl fun r _ => Finset.sum_congr rfl fun w _ => h r w

end Cert.Normalize

end
-- ==== Proof.BlockValue.lean ====
/-
  What the kernel body computes for one block, index by index, over the extended reals.

  A block holds 16 channels of one sample: [1, 16, 256, 256]. The body sums each channel's plane in two steps (over
  the columns, then over the rows), each from the zero word, multiplies by 2^-16 for the mean, subtracts it, sums the
  squares the same way for the variance, and scales and shifts by the two [1, 16, 1, 1] blocks. At (0, q, r, w) that
  is channel q's plane computation at (r, w).
-/
import proofs.«161705_j48335561949473_1_alg».proof.Proof.Gen.KernelIdeal.Skeleton
import proofs.«161705_j48335561949473_1_alg».proof.Proof.Normalize
import Idealize.ShloMosaic.Lib.Pipeline.Value
import Idealize.ShloMosaic.PureOps.Ideal.Laws

noncomputable section

namespace Cert.KernelIdeal.BlockValue

open Cert.KernelIdeal Cert.KernelIdeal.Gen
open Idealize.ShloMosaic Idealize.ShloMosaic.ValueIdx Cert.Normalize
open scoped BigOperators

/-- Inserting a column w into (0, q, r) gives (0, q, r, w). -/
theorem lift_col (j : S1x16x256.Idx) (q : Fin 16) (r w : Fin 256) (hj : j = ix3 (0 : Fin 1) q r) :
    reduces_S1x16x256x256_S1x16x256.lift j w = ix4 (0 : Fin 1) q r w := by
  subst hj
  funext a; apply Fin.ext
  match a with
  | ⟨0, _⟩ => rfl
  | ⟨1, _⟩ => rfl
  | ⟨2, _⟩ => rfl
  | ⟨3, _⟩ => rfl

/-- The sum over the columns, read at (0, q, r). -/
theorem colSum_apply (Y : FVec Ideal S1x16x256x256 .f32) (hφ : FKind.Formats .f32)
    (hacc : (0x00000000#32 : BitVec 32) = FKind.add.neutral .f32 hφ) (q : Fin 16) (r : Fin 256) :
    multiReduction .add [3] S1x16x256 Y 0x00000000#32 reduces_S1x16x256x256_S1x16x256 hφ hacc (ix3 (0 : Fin 1) q r)
      = ∑ w : Fin 256, Y (ix4 (0 : Fin 1) q r w) := by
  refine (Ideal.multiReduction_add_single Y 0x00000000#32 reduces_S1x16x256x256_S1x16x256 hφ hacc
    (ix3 (0 : Fin 1) q r)).trans ?_
  exact Finset.sum_congr rfl fun w _ => congrArg Y (lift_col _ q r w rfl)

/-- The column sums with a unit axis appended: (0, q, r, 0) reads (0, q, r). -/
theorem appendUnit3_apply (u : S1x16x256.Idx → EReal) (j : S1x16x256x1.Idx) (q : Fin 16) (r : Fin 256)
    (h0 : (j 0).val = 0) (h1 : (j 1).val = q.val) (h2 : (j 2).val = r.val) (h3 : (j 3).val = 0) :
    shapeCast S1x16x256x1 u shapeCasts_S1x16x256_S1x16x256x1 j = u (ix3 (0 : Fin 1) q r) := by
  refine shapeCast_apply _ _ _ _ ?_
  rw [Shape.rowMajor_val_three, Shape.rowMajor_val_four]
  show ((0 * 16 + q.val) * 256 + r.val) = (((j 0).val * 16 + (j 1).val) * 256 + (j 2).val) * 1 + (j 3).val
  omega

/-- The two-step sum of a block's channel q: over the columns, then over the rows. -/
theorem blockSum_apply (Y : FVec Ideal S1x16x256x256 .f32) (hφ hφ' : FKind.Formats .f32)
    (hacc : (0x00000000#32 : BitVec 32) = FKind.add.neutral .f32 hφ)
    (hacc' : (0x00000000#32 : BitVec 32) = FKind.add.neutral .f32 hφ') (q : Fin 16) :
    multiReduction .add [2] S1x16x1 (shapeCast S1x16x256x1 (multiReduction .add [3] S1x16x256 Y 0x00000000#32 reduces_S1x16x256x256_S1x16x256 hφ hacc) shapeCasts_S1x16x256_S1x16x256x1) 0x00000000#32 reduces_S1x16x256x1_S1x16x1 hφ' hacc' (ix3 (0 : Fin 1) q (0 : Fin 1))
      = ∑ r : Fin 256, ∑ w : Fin 256, Y (ix4 (0 : Fin 1) q r w) := by
  refine (Ideal.multiReduction_add_single _ 0x00000000#32 reduces_S1x16x256x1_S1x16x1 hφ' hacc'
    (ix3 (0 : Fin 1) q (0 : Fin 1))).trans ?_
  refine Finset.sum_congr rfl fun r _ => ?_
  exact (appendUnit3_apply _ _ q r rfl rfl rfl rfl).trans (colSum_apply Y hφ hacc q r)

/-- A per-channel [1, 16, 1] array with a unit axis appended: (0, q, 0, 0) reads (0, q, 0). -/
theorem appendUnit2_apply (u : S1x16x1.Idx → EReal) (q : Fin 16) :
    shapeCast S1x16x1x1 u shapeCasts_S1x16x1_S1x16x1x1 (ix4 (0 : Fin 1) q (0 : Fin 1) (0 : Fin 1)) = u (ix3 (0 : Fin 1) q (0 : Fin 1)) := by
  refine shapeCast_apply _ _ _ _ ?_
  rw [Shape.rowMajor_val_three, Shape.rowMajor_val_four]
  show (0 * 16 + q.val) * 1 + 0 = ((0 * 16 + q.val) * 1 + 0) * 1 + 0
  omega

/-- A per-channel [1, 16, 1, 1] array spread over the block: (0, q, r, w) reads (0, q, 0, 0). -/
theorem spread_apply (v : S1x16x1x1.Idx → EReal) (q : Fin 16) (r w : Fin 256) :
    broadcastTo S1x16x256x256 v broadcasts_S1x16x1x1_S1x16x256x256 (ix4 (0 : Fin 1) q r w)
      = v (ix4 (0 : Fin 1) q (0 : Fin 1) (0 : Fin 1)) := by
  refine broadcastTo_apply _ _ _ _ fun a => ?_
  match a with
  | ⟨0, _⟩ => show 0 = if (1 : Nat) = 1 then 0 else _; rw [if_pos rfl]
  | ⟨1, _⟩ => show q.val = if (16 : Nat) = 1 then 0 else q.val; rw [if_neg (by decide)]
  | ⟨2, _⟩ => show 0 = if (1 : Nat) = 1 then 0 else _; rw [if_pos rfl]
  | ⟨3, _⟩ => show 0 = if (1 : Nat) = 1 then 0 else _; rw [if_pos rfl]

/-- The pointwise reciprocal square root at an index. -/
theorem rsqrt_apply {s : Shape} (v : FVec Ideal s .f32) (i : s.Idx) : rsqrt v i = Ideal.rsqrt (v i) := rfl

/-- A channel's two-step sum as one array of the block: over the columns, then over the rows. -/
def twoStep (Y : FVec Ideal S1x16x256x256 .f32) : FVec Ideal S1x16x1 .f32 :=
  multiReduction .add [2] S1x16x1 (shapeCast S1x16x256x1 (multiReduction .add [3] S1x16x256 Y 0x00000000#32 reduces_S1x16x256x256_S1x16x256 (.inl rfl) rfl) shapeCasts_S1x16x256_S1x16x256x1) 0x00000000#32 reduces_S1x16x256x1_S1x16x1 (.inl rfl) rfl

theorem twoStep_apply (Y : FVec Ideal S1x16x256x256 .f32) (q : Fin 16) :
    twoStep Y (ix3 (0 : Fin 1) q (0 : Fin 1)) = ∑ r : Fin 256, ∑ w : Fin 256, Y (ix4 (0 : Fin 1) q r w) :=
  blockSum_apply Y _ _ _ _ q

/-- The block minus each channel's mean (its two-step sum times the word for 2^-16), spread over the plane. -/
def centre (P0 : FVec Ideal S1x16x256x256 .f32) : FVec Ideal S1x16x256x256 .f32 :=
  subf P0 (broadcastTo S1x16x256x256 (mulf (shapeCast S1x16x1x1 (twoStep P0) shapeCasts_S1x16x1_S1x16x1x1)
    (broadcast S1x16x1x1 (Scalar.ofBits .f32 0x37800000#32))) broadcasts_S1x16x1x1_S1x16x256x256)

theorem centre_apply (P0 : FVec Ideal S1x16x256x256 .f32) (q : Fin 16) (r w : Fin 256) :
    centre P0 (ix4 (0 : Fin 1) q r w)
      = P0 (ix4 (0 : Fin 1) q r w) - (∑ r' : Fin 256, ∑ w' : Fin 256, P0 (ix4 (0 : Fin 1) q r' w')) * invHW := by
  unfold centre
  simp only [subf_apply, spread_apply, mulf_apply, appendUnit2_apply, twoStep_apply, broadcast_apply]
  show _ - _ * Ideal.ofBits .f32 0x37800000#32 = _
  rw [ofBits_invHW]

/-- The body's result as the tree of its vector operations over the two-step sums. -/
theorem pay_eq (P0 : Vec Ideal S1x16x256x256 .f32) (P1 P2 : Vec Ideal S1x16x1x1 .f32) :
    k0_pay1 P0 P1 P2
      = addf (mulf (mulf (centre P0)
          (broadcastTo S1x16x256x256 (rsqrt (addf (mulf (shapeCast S1x16x1x1 (twoStep (mulf (centre P0) (centre P0))) shapeCasts_S1x16x1_S1x16x1x1)
            (broadcast S1x16x1x1 (Scalar.ofBits .f32 0x37800000#32))) (broadcast S1x16x1x1 (Scalar.ofBits .f32 0x3727C5AC#32))))
            broadcasts_S1x16x1x1_S1x16x256x256))
          (broadcastTo S1x16x256x256 (shapeCast S1x16x1x1 P1 shapeCasts_S1x16x1x1_S1x16x1x1) broadcasts_S1x16x1x1_S1x16x256x256))
          (broadcastTo S1x16x256x256 (shapeCast S1x16x1x1 P2 shapeCasts_S1x16x1x1_S1x16x1x1) broadcasts_S1x16x1x1_S1x16x256x256) := rfl

/-- THE BLOCK'S VALUE: at (0, q, r, w) the body's result is channel q's plane computation at (r, w), with the scale
    and shift blocks read at (0, q, 0, 0). -/
theorem block_eq (P0 : Vec Ideal S1x16x256x256 .f32) (P1 P2 : Vec Ideal S1x16x1x1 .f32) (q : Fin 16) (r w : Fin 256) :
    k0_pay1 P0 P1 P2 (ix4 (0 : Fin 1) q r w)
      = planeNorm (fun r' w' => P0 (ix4 (0 : Fin 1) q r' w')) (P1 (ix4 (0 : Fin 1) q (0 : Fin 1) (0 : Fin 1)))
          (P2 (ix4 (0 : Fin 1) q (0 : Fin 1) (0 : Fin 1))) r w := by
  rw [pay_eq]
  unfold planeNorm
  simp only [addf_apply, mulf_apply, spread_apply, rsqrt_apply, appendUnit2_apply, twoStep_apply, centre_apply,
    broadcast_apply, shapeCast_self]
  show _ * Ideal.rsqrt (_ * Ideal.ofBits .f32 0x37800000#32 + Ideal.ofBits .f32 0x3727C5AC#32) * _ + _ = _
  rw [ofBits_invHW]
  rfl

end Cert.KernelIdeal.BlockValue

end
-- ==== Proof.StyleRows.lean ====
/-
  The scale and shift arrays the kernel region finds.

  Before the region the host program picks, for each of the 16 samples, a row of the [4, 64] scale table and a row of
  the [4, 64] shift table: the sample's style word, with 4 added when it is negative, is the start index of a row
  gather. Each gathered [16, 64] array is then reshaped to [16, 64, 1, 1], so its entry (b, c, 0, 0) is the gathered
  entry (b, c). Which row the gather picks plays no part: the reference gathers by the same index column.
-/
import proofs.«161705_j48335561949473_1_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal

noncomputable section

namespace Cert.KernelIdeal.StyleRows

open Cert.KernelIdeal Cert.KernelIdeal.Gen
open Idealize.ShloMosaic Idealize.ShloMosaic.TcCoe Idealize.ShloMosaic.ValueIdx Idealize.SL.Sem Idealize.ShloMosaic.StableHlo

/-- The column of start indices: the style word, plus 4 where it is negative. -/
def rowIndex (st : IVec S16 32) : IVec S16x1 32 :=
  broadcastInDim S16x1 ![0] bcast_S16_S16x1_0
    (select (cmpi .slt st (broadcastInDim S16 ![] bcast_S_S16 (constantI S_ 32 0#32)))
      (addi st (broadcastInDim S16 ![] bcast_S_S16 (constantI S_ 32 4#32))) st)

/-- The rows of a [4, 64] table picked by the styles: a [16, 64] array. -/
def rows (st : IVec S16 32) (tab : FVec Ideal S4x64 .f32) : FVec Ideal S16x64 .f32 :=
  Host.gather gather_S4x64_S16x1_S16x64_1_0_n_n_0_1_164 tab (rowIndex st)

/-- A [16, 64] array reshaped to [16, 64, 1, 1] reads (b, c) at (b, c, 0, 0). -/
theorem reshape_apply (u : S16x64.Idx → EReal) (b : Fin 16) (c : Fin 64) :
    shapeCast S16x64x1x1 u shapeCasts_S16x64_S16x64x1x1 (ix4 b c (0 : Fin 1) (0 : Fin 1)) = u (ix2 b c) := by
  refine shapeCast_apply _ _ _ _ ?_
  rw [Shape.rowMajor_val_two, Shape.rowMajor_val_four]
  show b.val * 64 + c.val = ((b.val * 64 + c.val) * 1 + 0) * 1 + 0
  omega

variable (m : (ℓ : Loc nD τ sig) → Buf (Elt Ideal) ℓ)

/-- The scale array the region finds: the scale table's rows picked by the styles, reshaped. -/
theorem V_scale (c : Dev nD) :
    (V m c main_v7 : S16x64x1x1.Idx → EReal)
      = shapeCast S16x64x1x1 (rows (m ((c : Thread nD τ).loc main_arg1)) (m ((c : Thread nD τ).loc main_arg2)))
          shapeCasts_S16x64_S16x64x1x1 := by
  dsimp only [Gen.V, Gen.hostOps0]
  after_results
  rfl

/-- The shift array the region finds: the shift table's rows picked by the styles, reshaped. -/
theorem V_shift (c : Dev nD) :
    (V m c main_v15 : S16x64x1x1.Idx → EReal)
      = shapeCast S16x64x1x1 (rows (m ((c : Thread nD τ).loc main_arg1)) (m ((c : Thread nD τ).loc main_arg3)))
          shapeCasts_S16x64_S16x64x1x1 := by
  dsimp only [Gen.V, Gen.hostOps0]
  after_results
  rfl

end Cert.KernelIdeal.StyleRows

end
-- ==== Proof.ArrayValue.lean ====
/-
  From the blocks to the whole output array.

  The grid has 16 x 4 points; point (b, cb) stages, of sample b, the 16 channels 16 cb .. 16 cb + 15: block
  (b, cb, 0, 0) of the activations, of the scale array, of the shift array and of the output. So what the point writes
  back is the normalised array restricted to its block: a channel's plane lies whole inside one block, and the plane
  computation reads nothing else. The 64 output blocks tile the array, so after the run the output array is the
  normalised array.
-/
import proofs.«161705_j48335561949473_1_alg».proof.Proof.Gen.KernelIdeal.Value
import proofs.«161705_j48335561949473_1_alg».proof.Proof.BlockValue
import proofs.«161705_j48335561949473_1_alg».proof.Proof.StyleRows
import proofs.«161705_j48335561949473_1_alg».proof.Proof.Normalize

set_option maxRecDepth 16384

noncomputable section

namespace Cert.KernelIdeal.ArrayValue

open Cert.KernelIdeal Cert.KernelIdeal.Gen Cert.KernelIdeal.Value Cert.KernelIdeal.BlockValue Cert.KernelIdeal.StyleRows
open Idealize.ShloMosaic Idealize.ShloMosaic.TcCoe Idealize.ShloMosaic.ValueIdx Idealize.SL.Sem Cert.Normalize
open Idealize.ShloMosaic.Pipeline (Dat)

variable (m : (ℓ : Loc nD τ sig) → Buf (Elt Ideal) ℓ) (ρ : Dev nD → PrngReg)

/-- The kernel program's result on core c: the activations normalised, scaled and shifted by the picked rows. -/
def result (c : Dev nD) : S16x64x256x256.Idx → EReal :=
  normalized (m ((c : Thread nD τ).loc main_arg0))
    (rows (m ((c : Thread nD τ).loc main_arg1)) (m ((c : Thread nD τ).loc main_arg2)))
    (rows (m ((c : Thread nD τ).loc main_arg1)) (m ((c : Thread nD τ).loc main_arg3)))

theorem zeros4 : (![0, 0, 0, 0] : Fin 4 → Nat) = fun _ => 0 := funext fun a => by fin_cases a <;> rfl

/-- One point's value, over variables of the literal block types: if channel q of the activation block is plane
    (b, c) of X, and the scale and shift blocks hold g (b, c) and bt (b, c) there, then the body's result at
    (0, q, r, w) is the normalised array at (b, c, r, w). -/
theorem point_value (X : SX.Idx → EReal) (g bt : SR.Idx → EReal) (b : Fin 16) (c : Fin 64)
    (P0 : Vec Ideal S1x16x256x256 .f32) (P1 P2 : Vec Ideal S1x16x1x1 .f32) (q : Fin 16) (r w : Fin 256)
    (i : S16x64x256x256.Idx) (hi : i = ix4 b c r w)
    (h0 : ∀ r' w' : Fin 256, P0 (ix4 (0 : Fin 1) q r' w') = X (ix4 b c r' w'))
    (h1 : P1 (ix4 (0 : Fin 1) q (0 : Fin 1) (0 : Fin 1)) = g (ix2 b c))
    (h2 : P2 (ix4 (0 : Fin 1) q (0 : Fin 1) (0 : Fin 1)) = bt (ix2 b c)) :
    k0_pay1 P0 P1 P2 (ix4 (0 : Fin 1) q r w) = normalized X g bt i := by
  subst hi
  rw [block_eq, normalized_apply, h1, h2]
  congr 1
  funext r' w'
  exact h0 r' w'

/-- The printed index maps over the grid: every window is at block (b, cb, 0, 0) where the output is. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (0 : Fin 4) < 16 ∧ win0_3.index t (1 : Fin 4) < 4
    ∧ win0_3.index t (2 : Fin 4) = 0 ∧ win0_3.index t (3 : Fin 4) = 0 :=
  (by decide +kernel : ∀ t : Fin grid0.N, _)

/-- Every block (b, cb, 0, 0) of the output is some point's. -/
theorem idx_onto : ∀ (b : Fin 16) (cb : Fin 4), ∃ t : Fin cfg0.N, win0_3.index t = ![b.val, cb.val, 0, 0] :=
  (by decide +kernel : ∀ (b : Fin 16) (cb : Fin 4), ∃ t : Fin grid0.N, win0_3.index t = ![b.val, cb.val, 0, 0])

/-- WHAT POINT t WRITES BACK is its block of the result. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zeros4]
  simp only [View.ld_unit_zero (S := S1x16x256x256) zeros4, View.ld_unit_zero (S := S1x16x1x1) zeros4]
  obtain ⟨e00, e01, e02, e03, e10, e11, e12, e13, e20, e21, e22, e23, hb, hcb, e32, e33⟩ := idx_facts t
  funext j
  have hj0 : (j 0).val < 1 := (j 0).isLt
  have hj1 : (j 1).val < 16 := (j 1).isLt
  have hj2 : (j 2).val < 256 := (j 2).isLt
  have hj3 : (j 3).val < 256 := (j 3).isLt
  have hc : win0_3.index t (1 : Fin 4) * 16 + (j 1).val < 64 := by omega
  show k0_pay1 (iblk m c 0 t) (iblk m c 1 t) (iblk m c 2 t) j = result m c (((cfg0.win 3).blk t).view.emb j)
  have ej : j = ix4 (0 : Fin 1) (⟨(j 1).val, hj1⟩ : Fin 16) (⟨(j 2).val, hj2⟩ : Fin 256) (⟨(j 3).val, hj3⟩ : Fin 256) := by
    funext a; apply Fin.ext
    match a with
    | ⟨0, _⟩ => show (j 0).val = 0; omega
    | ⟨1, _⟩ => rfl
    | ⟨2, _⟩ => rfl
    | ⟨3, _⟩ => rfl
  refine (congrArg (k0_pay1 (iblk m c 0 t) (iblk m c 1 t) (iblk m c 2 t)) ej).trans ?_
  refine point_value (m ((c : Thread nD τ).loc main_arg0))
    (rows (m ((c : Thread nD τ).loc main_arg1)) (m ((c : Thread nD τ).loc main_arg2)))
    (rows (m ((c : Thread nD τ).loc main_arg1)) (m ((c : Thread nD τ).loc main_arg3)))
    ⟨win0_3.index t (0 : Fin 4), hb⟩ ⟨win0_3.index t (1 : Fin 4) * 16 + (j 1).val, hc⟩
    (iblk m c 0 t) (iblk m c 1 t) (iblk m c 2 t) ⟨(j 1).val, hj1⟩ ⟨(j 2).val, hj2⟩ ⟨(j 3).val, hj3⟩
    (((cfg0.win 3).blk t).view.emb j) ?_ ?_ ?_ ?_
  · funext a; apply Fin.ext
    match a with
    | ⟨0, _⟩ => show win0_3.index t (0 : Fin 4) * 1 + 1 * (j 0).val = win0_3.index t (0 : Fin 4); omega
    | ⟨1, _⟩ => show win0_3.index t (1 : Fin 4) * 16 + 1 * (j 1).val = win0_3.index t (1 : Fin 4) * 16 + (j 1).val; omega
    | ⟨2, _⟩ => show win0_3.index t (2 : Fin 4) * 256 + 1 * (j 2).val = (j 2).val; omega
    | ⟨3, _⟩ => show win0_3.index t (3 : Fin 4) * 256 + 1 * (j 3).val = (j 3).val; omega
  · intro r w
    show V m c main_arg0 (((cfg0.win 0).blk t).view.emb (ix4 (0 : Fin 1) (⟨(j 1).val, hj1⟩ : Fin 16) r w)) = _
    refine (congrFun (V_main_arg0 m c) _).trans (congrArg _ ?_)
    funext a; apply Fin.ext
    match a with
    | ⟨0, _⟩ => show win0_0.index t (0 : Fin 4) * 1 + 1 * 0 = win0_3.index t (0 : Fin 4); omega
    | ⟨1, _⟩ => show win0_0.index t (1 : Fin 4) * 16 + 1 * (j 1).val = win0_3.index t (1 : Fin 4) * 16 + (j 1).val; omega
    | ⟨2, _⟩ => show win0_0.index t (2 : Fin 4) * 256 + 1 * r.val = r.val; omega
    | ⟨3, _⟩ => show win0_0.index t (3 : Fin 4) * 256 + 1 * w.val = w.val; omega
  · show V m c main_v7 (((cfg0.win 1).blk t).view.emb (ix4 (0 : Fin 1) (⟨(j 1).val, hj1⟩ : Fin 16) (0 : Fin 1) (0 : Fin 1))) = _
    refine (congrFun (V_scale m c) _).trans ?_
    refine (congrArg _ ?_).trans (reshape_apply _ ⟨win0_3.index t (0 : Fin 4), hb⟩ ⟨win0_3.index t (1 : Fin 4) * 16 + (j 1).val, hc⟩)
    funext a; apply Fin.ext
    match a with
    | ⟨0, _⟩ => show win0_1.index t (0 : Fin 4) * 1 + 1 * 0 = win0_3.index t (0 : Fin 4); omega
    | ⟨1, _⟩ => show win0_1.index t (1 : Fin 4) * 16 + 1 * (j 1).val = win0_3.index t (1 : Fin 4) * 16 + (j 1).val; omega
    | ⟨2, _⟩ => show win0_1.index t (2 : Fin 4) * 1 + 1 * 0 = 0; omega
    | ⟨3, _⟩ => show win0_1.index t (3 : Fin 4) * 1 + 1 * 0 = 0; omega
  · show V m c main_v15 (((cfg0.win 2).blk t).view.emb (ix4 (0 : Fin 1) (⟨(j 1).val, hj1⟩ : Fin 16) (0 : Fin 1) (0 : Fin 1))) = _
    refine (congrFun (V_shift m c) _).trans ?_
    refine (congrArg _ ?_).trans (reshape_apply _ ⟨win0_3.index t (0 : Fin 4), hb⟩ ⟨win0_3.index t (1 : Fin 4) * 16 + (j 1).val, hc⟩)
    funext a; apply Fin.ext
    match a with
    | ⟨0, _⟩ => show win0_2.index t (0 : Fin 4) * 1 + 1 * 0 = win0_3.index t (0 : Fin 4); omega
    | ⟨1, _⟩ => show win0_2.index t (1 : Fin 4) * 16 + 1 * (j 1).val = win0_3.index t (1 : Fin 4) * 16 + (j 1).val; omega
    | ⟨2, _⟩ => show win0_2.index t (2 : Fin 4) * 1 + 1 * 0 = 0; omega
    | ⟨3, _⟩ => show win0_2.index t (3 : Fin 4) * 1 + 1 * 0 = 0; omega

/-- An index of the array is in point t's block iff each coordinate is in the block's range on its axis. -/
theorem mem_blk (t : Fin cfg0.N) (i : S16x64x256x256.Idx) :
    i ∈ ((cfg0.win 3).blk t).view.set ↔ ∀ a : Fin 4, win0_3.index t a * S1x16x256x256.size a ≤ (i a).val ∧ (i a).val < win0_3.index t a * S1x16x256x256.size a + S1x16x256x256.size a := by
  show i ∈ ((View.whole main_v16).slice (win0_3.rect t)).set ↔ _
  rw [View.set_slice_whole, Rect.mem_set_unit]
  exact Iff.rfl

/-- The output's blocks tile the array: index (b, c, r, w) lies in the block of point (b, c / 16). -/
theorem cover (i : S16x64x256x256.Idx) :
    ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 256 := (i 2).isLt
  have hi3 : (i 3).val < 256 := (i 3).isLt
  obtain ⟨t, ht⟩ := idx_onto ⟨(i 0).val, hi0⟩ ⟨(i 1).val / 16, by omega⟩
  have q0 : win0_3.index t (0 : Fin 4) = (i 0).val := congrFun ht 0
  have q1 : win0_3.index t (1 : Fin 4) = (i 1).val / 16 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 256 ≤ (i 2).val ∧ (i 2).val < win0_3.index t (2 : Fin 4) * 256 + 256; omega
  | ⟨3, _⟩ => show win0_3.index t (3 : Fin 4) * 256 ≤ (i 3).val ∧ (i 3).val < win0_3.index t (3 : Fin 4) * 256 + 256; omega

/-- THE OUTPUT ARRAY after the run is the result. -/
theorem final (c : Dev nD) : (dats m 0 c).arrAt 3 cfg0.N = result m c :=
  (dats m 0 c).arrAt_eq_of_cover 3 (result m c) (fun t _ => flushed_eq m c t) cover

/-- The kernel program's run: the output array ends at the result, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.LibReduce4.lean ====
/-
  A host sum over the last two axes of a rank-4 array of extended reals, read at an index of the rank-2 result: the
  initial value plus the double sum, over the third and fourth coordinates, of the array at (i, j, r, col). Any sizes.

  The indices of the array whose first two coordinates are (i, j) are exactly the quadruples (i, j, r, col); they are
  the image of the pairs (r, col) under an injection, so the sum over them is the sum over the pairs, which is the
  double sum.
-/
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Group.Finset.Sigma
import Mathlib.Data.Fintype.BigOperators

noncomputable section

namespace Cert.LibReduce4

open Idealize.ShloMosaic Idealize.ShloMosaic.ValueIdx
open scoped BigOperators

variable {a b c d : ℕ}

/-- Dropping the last two coordinates of (i, j, r, col) leaves (i, j). -/
theorem drop_ix4 (h : (⟨4, ![a, b, c, d]⟩ : Shape).ReducesTo [2, 3] ⟨2, ![a, b]⟩) (i : Fin a) (j : Fin b) (r : Fin c)
    (col : Fin d) : h.drop (ix4 i j r col) = ix2 i j := by
  funext e
  match e with
  | ⟨0, _⟩ => rfl
  | ⟨1, _⟩ => rfl

/-- An index whose last two coordinates dropped leave (i, j) is (i, j, its third coordinate, its fourth coordinate). -/
theorem eq_ix4_of_drop (h : (⟨4, ![a, b, c, d]⟩ : Shape).ReducesTo [2, 3] ⟨2, ![a, b]⟩) (i : Fin a) (j : Fin b)
    (idx : (⟨4, ![a, b, c, d]⟩ : Shape).Idx) (hd : h.drop idx = ix2 i j) : idx = ix4 i j (idx 2) (idx 3) := by
  have h0 : idx 0 = i := Fin.ext (congrArg Fin.val (congrFun hd ⟨0, Nat.zero_lt_two⟩))
  have h1 : idx 1 = j := Fin.ext (congrArg Fin.val (congrFun hd ⟨1, Nat.one_lt_two⟩))
  rw [← h0, ← h1]
  exact eq_ix4 idx

/-- The pairs (r, col) as the quadruples (i, j, r, col): an injection. -/
def pairEmb (i : Fin a) (j : Fin b) : Fin c × Fin d ↪ (⟨4, ![a, b, c, d]⟩ : Shape).Idx :=
  ⟨fun p => ix4 i j p.1 p.2, fun p q hpq => by
    have h2 : p.1 = q.1 := congrFun hpq 2
    have h3 : p.2 = q.2 := congrFun hpq 3
    exact Prod.ext h2 h3⟩

/-- The indices that drop to (i, j) are the image of the pairs. -/
theorem filter_drop (h : (⟨4, ![a, b, c, d]⟩ : Shape).ReducesTo [2, 3] ⟨2, ![a, b]⟩) (i : Fin a) (j : Fin b) :
    Finset.univ.filter (fun idx : (⟨4, ![a, b, c, d]⟩ : Shape).Idx => h.drop idx = ix2 i j)
      = Finset.univ.map (pairEmb (a := a) (b := b) (c := c) (d := d) i j) := by
  ext idx
  simp only [Finset.mem_filter, Finset.mem_univ, true_and, Finset.mem_map, pairEmb, Function.Embedding.coeFn_mk]
  constructor
  · intro hd
    exact ⟨(idx 2, idx 3), (eq_ix4_of_drop h i j idx hd).symm⟩
  · rintro ⟨p, hp⟩
    rw [← hp]
    exact drop_ix4 h i j p.1 p.2

/-- The host sum over the last two axes, read at (i, j): the initial value plus the double sum over (r, col) of the
    array at (i, j, r, col). -/
theorem hostReduceAdd_axes23_apply {φ : FTy} {u : Shape} (x : (⟨4, ![a, b, c, d]⟩ : Shape).Idx → EReal)
    (init : u.Idx → EReal) (h : (⟨4, ![a, b, c, d]⟩ : Shape).ReducesTo [2, 3] ⟨2, ![a, b]⟩) (hu : 0 < u.numel)
    (i : Fin a) (j : Fin b) :
    Host.reduceAdd (F := Ideal) (φ := φ) x init h hu (ix2 i j)
      = init (Shape.Idx.first hu) + ∑ r : Fin c, ∑ col : Fin d, x (ix4 i j r col) := by
  show Ideal.hostReduceAdd h x (init (Shape.Idx.first hu)) (ix2 i j) = _
  unfold Ideal.hostReduceAdd
  rw [filter_drop, Finset.sum_map, Fintype.sum_prod_type]
  rfl

end Cert.LibReduce4

end
-- ==== Proof.ReferenceValue.lean ====
/-
  The reference program's result is the normalised array.

  The reference sums each 256 x 256 plane in one reduction over the last two axes, from a zero initial value, and
  divides by 65536; that is the plane sum times 2^-16. Stage by stage: the mean, the centred array, the variance
  (the mean of the centred array's square), and the result; the scale and the shift are the two gathered [16, 64]
  arrays read at (sample, channel), whatever rows the gather picks.
-/
import proofs.«161705_j48335561949473_1_alg».proof.Proof.Gen.ReferenceIdeal.Read
import proofs.«161705_j48335561949473_1_alg».proof.Proof.Normalize
import proofs.«161705_j48335561949473_1_alg».proof.Proof.LibReduce4

noncomputable section

namespace Cert.ReferenceIdeal.RefValue

open Cert.ReferenceIdeal Cert.ReferenceIdeal.Gen Cert.ReferenceIdeal.Read
open Idealize.ShloMosaic Idealize.ShloMosaic.ValueIdx Cert.Normalize

/-- The reduction over the last two axes from the zero word is the plane sum. -/
theorem reduce_plane (Y : FVec Ideal S16x64x256x256 .f32) (b : Fin 16) (c : Fin 64) :
    Host.reduceAdd Y (constant (F := Ideal) S_ .f32 0x00000000#32) reducesTo_S16x64x256x256_S16x64_d2_3 h_S_ (ix2 b c)
      = planeSum Y b c := by
  rw [Cert.LibReduce4.hostReduceAdd_axes23_apply]
  show Ideal.ofBits .f32 0x00000000#32 + _ = _
  rw [Ideal.ofBits_zero_f32, zero_add]
  rfl

/-- A per-plane array read at (b, c, 0, 0) reads the [16, 64] array at (b, c). -/
theorem idx_v1 (b : Fin 16) (c : Fin 64) : idx_main_v1 (ix4 b c (0 : Fin 1) (0 : Fin 1)) = ix2 b c := by
  funext a; match a with | ⟨0, _⟩ => rfl | ⟨1, _⟩ => rfl
theorem idx_v8 (b : Fin 16) (c : Fin 64) : idx_main_v8 (ix4 b c (0 : Fin 1) (0 : Fin 1)) = ix2 b c := by
  funext a; match a with | ⟨0, _⟩ => rfl | ⟨1, _⟩ => rfl
theorem idx_v25 (b : Fin 16) (c : Fin 64) : idx_main_v25 (ix4 b c (0 : Fin 1) (0 : Fin 1)) = ix2 b c := by
  funext a; match a with | ⟨0, _⟩ => rfl | ⟨1, _⟩ => rfl
theorem idx_v33 (b : Fin 16) (c : Fin 64) : idx_main_v33 (ix4 b c (0 : Fin 1) (0 : Fin 1)) = ix2 b c := by
  funext a; match a with | ⟨0, _⟩ => rfl | ⟨1, _⟩ => rfl

/-- A per-plane array spread over the plane: (b, c, r, w) reads (b, c, 0, 0). -/
theorem idx_v4 (b : Fin 16) (c : Fin 64) (r w : Fin 256) : idx_main_v4 (ix4 b c r w) = ix4 b c (0 : Fin 1) (0 : Fin 1) := by
  funext a; match a with | ⟨0, _⟩ => rfl | ⟨1, _⟩ => rfl | ⟨2, _⟩ => rfl | ⟨3, _⟩ => rfl
theorem idx_v11 (b : Fin 16) (c : Fin 64) (r w : Fin 256) : idx_main_v11 (ix4 b c r w) = ix4 b c (0 : Fin 1) (0 : Fin 1) := by
  funext a; match a with | ⟨0, _⟩ => rfl | ⟨1, _⟩ => rfl | ⟨2, _⟩ => rfl | ⟨3, _⟩ => rfl
theorem idx_v16 (b : Fin 16) (c : Fin 64) (r w : Fin 256) : idx_main_v16 (ix4 b c r w) = ix4 b c (0 : Fin 1) (0 : Fin 1) := by
  funext a; match a with | ⟨0, _⟩ => rfl | ⟨1, _⟩ => rfl | ⟨2, _⟩ => rfl | ⟨3, _⟩ => rfl
theorem idx_v34 (b : Fin 16) (c : Fin 64) (r w : Fin 256) : idx_main_v34 (ix4 b c r w) = ix4 b c (0 : Fin 1) (0 : Fin 1) := by
  funext a; match a with | ⟨0, _⟩ => rfl | ⟨1, _⟩ => rfl | ⟨2, _⟩ => rfl | ⟨3, _⟩ => rfl
theorem idx_v36 (b : Fin 16) (c : Fin 64) (r w : Fin 256) : idx_main_v36 (ix4 b c r w) = ix4 b c (0 : Fin 1) (0 : Fin 1) := by
  funext a; match a with | ⟨0, _⟩ => rfl | ⟨1, _⟩ => rfl | ⟨2, _⟩ => rfl | ⟨3, _⟩ => rfl

/-- The quotient of the plane's sum by 65536 is the mean. -/
theorem mean_eq (x0 : FVec Ideal S16x64x256x256 .f32) (b : Fin 16) (c : Fin 64) :
    val_main_v3 (F := Ideal) x0 (ix4 b c (0 : Fin 1) (0 : Fin 1)) = mean x0 b c := by
  rw [val_main_v3_apply, val_main_v1_apply, val_main_v2_apply, val_main_cst_0_apply, idx_v1]
  unfold val_main_v0 val_main_cst
  rw [reduce_plane]
  show Ideal.div (planeSum x0 b c) (Ideal.ofBits .f32 0x47800000#32) = _
  rw [div_65536]
  rfl

/-- The array minus its plane's mean is the centred array (the program computes it twice). -/
theorem centred_eq (x0 : FVec Ideal S16x64x256x256 .f32) (b : Fin 16) (c : Fin 64) (r w : Fin 256) :
    val_main_v5 (F := Ideal) x0 (ix4 b c r w) = centred x0 (ix4 b c r w) := by
  rw [val_main_v5_apply, val_main_v4_apply, idx_v4, mean_eq]
  rfl
theorem centred_eq' (x0 : FVec Ideal S16x64x256x256 .f32) (b : Fin 16) (c : Fin 64) (r w : Fin 256) :
    val_main_v12 (F := Ideal) x0 (ix4 b c r w) = centred x0 (ix4 b c r w) := by
  rw [val_main_v12_apply, val_main_v11_apply, idx_v11, mean_eq]
  rfl

/-- The quotient by 65536 of the plane sum of the centred array's square is the variance. -/
theorem variance_eq (x0 : FVec Ideal S16x64x256x256 .f32) (b : Fin 16) (c : Fin 64) :
    val_main_v10 (F := Ideal) x0 (ix4 b c (0 : Fin 1) (0 : Fin 1)) = variance x0 b c := by
  rw [val_main_v10_apply, val_main_v8_apply, val_main_v9_apply, val_main_cst_2_apply, idx_v8]
  unfold val_main_v7 val_main_cst_1
  rw [reduce_plane]
  show Ideal.div (planeSum (val_main_v6 (F := Ideal) x0) b c) (Ideal.ofBits .f32 0x47800000#32) = _
  rw [div_65536]
  unfold variance
  congr 1
  exact planeSum_congr b c fun r w => by rw [val_main_v6_apply, centred_eq]; rfl

/-- The reference's result is the normalised array, scaled and shifted by the gathered rows. -/
theorem result_eq (x0 : FVec Ideal S16x64x256x256 .f32) (x1 : IVec S16 32) (x2 x3 : FVec Ideal S4x64 .f32) :
    val_main_v37 (F := Ideal) x0 x1 x2 x3
      = normalized x0 (val_main_v24 (F := Ideal) x1 x2) (val_main_v32 (F := Ideal) x1 x3) := by
  funext i
  obtain ⟨b, c, r, w, rfl⟩ : ∃ (b : Fin 16) (c : Fin 64) (r w : Fin 256), i = ix4 b c r w :=
    ⟨i 0, i 1, i 2, i 3, eq_ix4 i⟩
  rw [val_main_v37_apply, val_main_v35_apply, val_main_v36_apply, idx_v36, val_main_v33_apply, idx_v33,
    val_main_v34_apply, idx_v34, val_main_v25_apply, idx_v25, val_main_v17_apply, centred_eq',
    val_main_v16_apply, idx_v16, val_main_v15_apply, val_main_v14_apply, variance_eq, val_main_v13_apply,
    val_main_cst_3_apply]
  rfl

end Cert.ReferenceIdeal.RefValue

end
-- ==== Proof.lean ====
/-
  Instance normalisation with a style-indexed affine: the kernel against its reference, over the extended reals.

  Both programs compute, for activations X of shape [16, 64, 256, 256], per sample b and channel c,

      out (b, c, r, w) = (X (b, c, r, w) - mean) * rsqrt (var + eps) * g (b, c) + bt (b, c),

  where mean is the average of plane (b, c), var the average of the squared deviations from it, and g, bt are rows of
  two [4, 64] tables picked by the sample's style word (plus 4 when negative), by the same gather in both programs.

  They differ in three spellings, none of which changes the value. The kernel sums a plane over its columns and then
  over its rows, the reference over both axes at once: one double sum, addition of extended reals being commutative
  and associative. The kernel multiplies the sum by the float 2^-16 where the reference divides it by 65536: the same
  extended real, for any sum, infinite ones included. And the kernel works on blocks of 16 channels of one sample, a
  plane lying whole inside a block, the 64 blocks tiling the array. No step needs the inputs to be finite.

  The frames of the two kernel programs are the generated ones; the reference has no kernel, and its frame is its
  generated run with the result dropped. The idealised kernel is the kernel's own text read over the extended reals,
  so the idealisation claim is trivial.
-/
import proofs.«161705_j48335561949473_1_alg».proof.Defs
import proofs.«161705_j48335561949473_1_alg».proof.Proof.Gen.Kernel
import proofs.«161705_j48335561949473_1_alg».proof.Proof.Gen.Kernel.Skeleton
import proofs.«161705_j48335561949473_1_alg».proof.Proof.Gen.Kernel.Launch
import proofs.«161705_j48335561949473_1_alg».proof.Proof.Gen.Kernel.Points
import proofs.«161705_j48335561949473_1_alg».proof.Proof.Gen.Kernel.Frame
import proofs.«161705_j48335561949473_1_alg».proof.Proof.Gen.KernelIdeal
import proofs.«161705_j48335561949473_1_alg».proof.Proof.Gen.KernelIdeal.Skeleton
import proofs.«161705_j48335561949473_1_alg».proof.Proof.Gen.KernelIdeal.Launch
import proofs.«161705_j48335561949473_1_alg».proof.Proof.Gen.KernelIdeal.Points
import proofs.«161705_j48335561949473_1_alg».proof.Proof.Gen.KernelIdeal.Frame
import proofs.«161705_j48335561949473_1_alg».proof.Proof.Gen.ReferenceIdeal
import proofs.«161705_j48335561949473_1_alg».proof.Proof.Gen.Pre_finite_inputs
import proofs.«161705_j48335561949473_1_alg».proof.Proof.Gen.KernelIdeal.Value
import proofs.«161705_j48335561949473_1_alg».proof.Proof.Gen.ReferenceIdeal.Run
import proofs.«161705_j48335561949473_1_alg».proof.Proof.Gen.ReferenceIdeal.Read
import proofs.«161705_j48335561949473_1_alg».proof.Proof.ArrayValue
import proofs.«161705_j48335561949473_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs pick the tables' rows by the same gather over the same index column. -/
theorem scale_rows_eq (x1 : IVec Cert.ReferenceIdeal.S16 32) (x2 : FVec Ideal Cert.ReferenceIdeal.S4x64 .f32) :
    Cert.ReferenceIdeal.Read.val_main_v24 (F := Ideal) x1 x2 = Cert.KernelIdeal.StyleRows.rows x1 x2 := rfl

theorem shift_rows_eq (x1 : IVec Cert.ReferenceIdeal.S16 32) (x3 : FVec Ideal Cert.ReferenceIdeal.S4x64 .f32) :
    Cert.ReferenceIdeal.Read.val_main_v32 (F := Ideal) x1 x3 = Cert.KernelIdeal.StyleRows.rows x1 x3 := rfl

/-- From memories that agree on the arguments both programs end with the normalised array of the same arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq, scale_rows_eq, shift_rows_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
